-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_arg14 : FVec F S2048x2048 .f32) (main_arg15 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  main_v78

def fn_part3 {F : FTy → Type} [FloatOps F] (main_arg11 : FVec F S2048 .f32) (main_arg12 : FVec F S2048x2048 .f32) (main_arg13 : FVec F S2048x2048 .f32) (main_arg14 : FVec F S2048x2048 .f32) (main_arg15 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_v63 main_v67

def fn_part2 {F : FTy → Type} [FloatOps F] (main_arg7 : FVec F S2048x1024 .f32) (main_arg8 : FVec F S2048 .f32) (main_arg9 : FVec F S2048 .f32) (main_arg10 : FVec F S2048 .f32) (main_arg11 : FVec F S2048 .f32) (main_arg12 : FVec F S2048x2048 .f32) (main_arg13 : FVec F S2048x2048 .f32) (main_arg14 : FVec F S2048x2048 .f32) (main_arg15 : FVec F S2048x2048 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_v48 main_v49 main_v50

def fn_part1 {F : FTy → Type} [FloatOps F] (main_arg4 : FVec F S2048x1024 .f32) (main_arg5 : FVec F S2048x1024 .f32) (main_arg6 : FVec F S2048x1024 .f32) (main_arg7 : FVec F S2048x1024 .f32) (main_arg8 : FVec F S2048 .f32) (main_arg9 : FVec F S2048 .f32) (main_arg10 : FVec F S2048 .f32) (main_arg11 : FVec F S2048 .f32) (main_arg12 : FVec F S2048x2048 .f32) (main_arg13 : FVec F S2048x2048 .f32) (main_arg14 : FVec F S2048x2048 .f32) (main_arg15 : FVec F S2048x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S2048x1024 .f32) (main_arg5 : FVec F S2048x1024 .f32) (main_arg6 : FVec F S2048x1024 .f32) (main_arg7 : FVec F S2048x1024 .f32) (main_arg8 : FVec F S2048 .f32) (main_arg9 : FVec F S2048 .f32) (main_arg10 : FVec F S2048 .f32) (main_arg11 : FVec F S2048 .f32) (main_arg12 : FVec F S2048x2048 .f32) (main_arg13 : FVec F S2048x2048 .f32) (main_arg14 : FVec F S2048x2048 .f32) (main_arg15 : FVec F S2048x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S512x256 : Shape := ⟨2, ![512, 256]⟩
abbrev S256x1024 : Shape := ⟨2, ![256, 1024]⟩
abbrev S256x2048 : Shape := ⟨2, ![256, 2048]⟩
abbrev S1x256 : Shape := ⟨2, ![1, 256]⟩

abbrev nBuf : Space → Nat
  | .hbm => 31
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S4096x1024, .bf16⟩
  | .hbm, ⟨17, _⟩ => ⟨S4096x2048, .bf16⟩
  | .hbm, ⟨18, _⟩ => ⟨S2048x1024, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S512x256, .f32⟩
  | .local _ .vmem, ⟨33, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x1024_S256x1024_S512x256_1_1_0_0_n_n_wf : DotDims.WF S512x1024 S256x1024 S512x256 [1] [1] [0] [0] [] []
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x2048.size a
  hwx0_3 : ∀ i : grid0.Coords, EltTy.bits .f32 = 32 ∨ (Rect.block (s := S4096x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .bf16 = 32 ∨ (Rect.block (s := S2048x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S2048x1024.size a
  hwx0_6 : ∀ i : grid0.Coords, EltTy.bits .bf16 = 32 ∨ (Rect.block (s := S2048x1024) S256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S2048x1024.size a
  hwx0_7 : ∀ i : grid0.Coords, EltTy.bits .bf16 = 32 ∨ (Rect.block (s := S2048x1024) S256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S2048x2048.size a
  hwx0_11 : ∀ i : grid0.Coords, EltTy.bits .bf16 = 32 ∨ (Rect.block (s := S2048x2048) S256x2048.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192x2048 : Shape := ⟨2, ![8192, 2048]⟩
abbrev S8192 : Shape := ⟨1, ![8192]⟩
abbrev S1024x8192 : Shape := ⟨2, ![1024, 8192]⟩
abbrev S4096x8192 : Shape := ⟨2, ![4096, 8192]⟩
abbrev S2048x8192 : Shape := ⟨2, ![2048, 8192]⟩
abbrev S1x8192 : Shape := ⟨2, ![1, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S8192x1024, .f32⟩
  | .hbm, ⟨17, _⟩ => ⟨S8192x2048, .f32⟩
  | .hbm, ⟨18, _⟩ => ⟨S8192, .f32⟩
  | .hbm, ⟨19, _⟩ => ⟨S1024x8192, .f32⟩
  | .hbm, ⟨20, _⟩ => ⟨S4096x8192, .f32⟩
  | .hbm, ⟨21, _⟩ => ⟨S2048x8192, .f32⟩
  | .hbm, ⟨22, _⟩ => ⟨S4096x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  concatenates_S2048x1024_S2048x1024_S2048x1024_S2048x1024_S8192x1024_d0 : Shape.Concatenates [S2048x1024, S2048x1024, S2048x1024, S2048x1024] S8192x1024 0
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x1024_S1024x8192_1_0 : S8192x1024.Transposes [1, 0] S1024x8192
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Spec.lean ====
/-
  The sLSTM cell step as ONE function of the sixteen argument arrays, index by index, over the extended reals.

  For batch row `p` and hidden unit `q` each of the four gates z, i, f, o has the pre-activation
      a_g(p, q) = (Σ_k x[p, k] · W_g[q, k]) + (Σ_k h[p, k] · R_g[q, k]) + b_g[q],
  the input contraction over 1024 features and the recurrent one over 2048 hidden units, and the new hidden state is
      σ(a_o) · ((e^{a_f} · c + e^{a_i} · tanh a_z) / (e^{a_f} · n + e^{a_i}))
  with σ the logistic function, `1 / (1 + e^{-a})` on every extended real, and the quotient the total division of the
  extended reals. Both programs compute exactly this expression, with the sums in the same grouping, so no law of
  arithmetic beyond the definitions is needed and the inputs' finiteness is never used.
-/
import Idealize.ShloMosaic.PureOps.Ideal
import Idealize.ShloMosaic.PureOps.Ideal.Laws
import Idealize.ShloMosaic.Lib.ValueIdx

noncomputable section

namespace Cert.SlstmSpec

open Idealize.ShloMosaic Idealize.ShloMosaic.ValueIdx

/-- One gate's pre-activation from the two rows it contracts: a row of the input against a row of the input weights,
    a row of the previous hidden state against a row of the recurrent weights, plus the bias entry. -/
def rowGate {K L : Nat} (xr wr : Fin K → EReal) (hr rr : Fin L → EReal) (b : EReal) : EReal :=
  (∑ k : Fin K, xr k * wr k) + (∑ k : Fin L, hr k * rr k) + b

/-- The state update at one position from the four pre-activations and the previous cell and normalizer entries. -/
def cell (az ai af ao c n : EReal) : EReal :=
  Ideal.logistic ao * Ideal.div (Ideal.exp af * c + Ideal.exp ai * Ideal.tanh az) (Ideal.exp af * n + Ideal.exp ai)

/-- A gate's pre-activation at batch row `p`, hidden unit `q`, from the whole arrays. -/
def gate (x : FVec Ideal ⟨2, ![4096, 1024]⟩ .f32) (h : FVec Ideal ⟨2, ![4096, 2048]⟩ .f32)
    (W : FVec Ideal ⟨2, ![2048, 1024]⟩ .f32) (R : FVec Ideal ⟨2, ![2048, 2048]⟩ .f32) (b : FVec Ideal ⟨1, ![2048]⟩ .f32)
    (p : Fin 4096) (q : Fin 2048) : EReal :=
  rowGate (fun k => x (ix2 p k)) (fun k => W (ix2 q k)) (fun k => h (ix2 p k)) (fun k => R (ix2 q k)) (b (ix1 q))

/-- The new hidden state, every entry. -/
def hNext (x : FVec Ideal ⟨2, ![4096, 1024]⟩ .f32) (h c n : FVec Ideal ⟨2, ![4096, 2048]⟩ .f32)
    (Wz Wi Wf Wo : FVec Ideal ⟨2, ![2048, 1024]⟩ .f32) (bz bi bf bo : FVec Ideal ⟨1, ![2048]⟩ .f32)
    (Rz Ri Rf Ro : FVec Ideal ⟨2, ![2048, 2048]⟩ .f32) : FVec Ideal ⟨2, ![4096, 2048]⟩ .f32 := fun j =>
  cell (gate x h Wz Rz bz (j 0) (j 1)) (gate x h Wi Ri bi (j 0) (j 1)) (gate x h Wf Rf bf (j 0) (j 1))
    (gate x h Wo Ro bo (j 0) (j 1)) (c j) (n j)

/-- The f32 word of one denotes the extended real `1`. -/
theorem one_f32 : Ideal.ofBits .f32 0x3F800000#32 = 1 := IdealRules.sign_bit.ideal_onePat .f32

/-- The logistic function spelled with a quotient, a sum, an exponential and a negation is the logistic function. -/
theorem logistic_expanded (a : EReal) : Ideal.div 1 (1 + Ideal.exp (-a)) = Ideal.logistic a := rfl

end Cert.SlstmSpec

end
-- ==== Proof.KernelBody.lean ====
/-
  The kernel body at one entry of its output block.

  A grid point holds a 512-row block of the input and of the previous hidden state (all their columns), a 256-row block
  of each gate's input and recurrent weights (all their columns), the matching 256 bias entries as a one-row block, and
  the 512 × 256 blocks of the previous cell and normalizer states. For each gate the body forms
  `x · Wᵀ + h · Rᵀ + b` — two matrix products into zero accumulators, each contracting the operands' second axes, and a
  row broadcast — and then applies the state update entry by entry. Read at entry `(p, q)` of the block each gate is the
  sum over the features of row `p` of the input block against row `q` of the weight block, plus the same for the
  recurrent pair, plus bias entry `q`: the row form of the specification's pre-activation.
-/
import proofs.«143511_j54047868453103_1_alg».proof.Proof.Gen.KernelIdeal.Skeleton
import proofs.«143511_j54047868453103_1_alg».proof.Proof.Spec
import Idealize.ShloMosaic.Lib.Pipeline.Value
import Idealize.ShloMosaic.Lib.ValueIdx
import Idealize.ShloMosaic.PureOps.Ideal.Laws

noncomputable section

namespace Cert.KernelIdeal.CellStep

open Cert.KernelIdeal Cert.KernelIdeal.Gen Idealize.ShloMosaic Idealize.ShloMosaic.ValueIdx Cert.SlstmSpec

/-! ## The two matrix products at an entry -/

theorem xw_lhs_0 (i : S512x256.Idx) (k : dot_S512x1024_S256x1024_S512x256_1_1_0_0_n_n.contr.Idx) :
    (dot_S512x1024_S256x1024_S512x256_1_1_0_0_n_n.lhsIdx i k 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem xw_lhs_1 (i : S512x256.Idx) (k : dot_S512x1024_S256x1024_S512x256_1_1_0_0_n_n.contr.Idx) :
    (dot_S512x1024_S256x1024_S512x256_1_1_0_0_n_n.lhsIdx i k 1).val = (k ⟨0, by decide⟩).val :=
  dot_S512x1024_S256x1024_S512x256_1_1_0_0_n_n.lhsIdx_val_of_single rfl i k
theorem xw_rhs_0 (i : S512x256.Idx) (k : dot_S512x1024_S256x1024_S512x256_1_1_0_0_n_n.contr.Idx) :
    (dot_S512x1024_S256x1024_S512x256_1_1_0_0_n_n.rhsIdx i k 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem xw_rhs_1 (i : S512x256.Idx) (k : dot_S512x1024_S256x1024_S512x256_1_1_0_0_n_n.contr.Idx) :
    (dot_S512x1024_S256x1024_S512x256_1_1_0_0_n_n.rhsIdx i k 1).val = (k ⟨0, by decide⟩).val :=
  dot_S512x1024_S256x1024_S512x256_1_1_0_0_n_n.rhsIdx_val_of_single rfl i k

/-- The input product at `(p, q)`: row `p` of the input block against row `q` of the weight block. -/
theorem xw_apply (x : FVec Ideal S512x1024 .bf16) (w : FVec Ideal S256x1024 .bf16) (p : Fin 512) (q : Fin 256) :
    matmul dot_S512x1024_S256x1024_S512x256_1_1_0_0_n_n none x w (constant (F := Ideal) S512x256 .f32 0x00000000#32) (ix2 p q)
      = ∑ k : Fin 1024, x (ix2 p k) * w (ix2 q k) := by
  simp only [matmul]
  rw [Ideal.matmul_constant_zero_apply, ← Equiv.sum_comp (ValueIdx.contrEquiv1 dot_S512x1024_S256x1024_S512x256_1_1_0_0_n_n 1024 rfl rfl).symm]
  refine Finset.sum_congr rfl fun k _ => ?_
  have hk := ValueIdx.contrEquiv1_symm_val dot_S512x1024_S256x1024_S512x256_1_1_0_0_n_n 1024 rfl rfl k
  have el : dot_S512x1024_S256x1024_S512x256_1_1_0_0_n_n.lhsIdx (ix2 p q) ((ValueIdx.contrEquiv1 dot_S512x1024_S256x1024_S512x256_1_1_0_0_n_n 1024 rfl rfl).symm k) = ix2 p k := funext fun a => Fin.ext (by
    match a with
    | ⟨0, _⟩ => exact xw_lhs_0 _ _
    | ⟨1, _⟩ => exact (xw_lhs_1 _ _).trans hk)
  have er : dot_S512x1024_S256x1024_S512x256_1_1_0_0_n_n.rhsIdx (ix2 p q) ((ValueIdx.contrEquiv1 dot_S512x1024_S256x1024_S512x256_1_1_0_0_n_n 1024 rfl rfl).symm k) = ix2 q k := funext fun a => Fin.ext (by
    match a with
    | ⟨0, _⟩ => exact xw_rhs_0 _ _
    | ⟨1, _⟩ => exact (xw_rhs_1 _ _).trans hk)
  rw [el, er]

theorem hr_lhs_0 (i : S512x256.Idx) (k : dot_S512x2048_S256x2048_S512x256_1_1_0_0_n_n.contr.Idx) :
    (dot_S512x2048_S256x2048_S512x256_1_1_0_0_n_n.lhsIdx i k 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem hr_lhs_1 (i : S512x256.Idx) (k : dot_S512x2048_S256x2048_S512x256_1_1_0_0_n_n.contr.Idx) :
    (dot_S512x2048_S256x2048_S512x256_1_1_0_0_n_n.lhsIdx i k 1).val = (k ⟨0, by decide⟩).val :=
  dot_S512x2048_S256x2048_S512x256_1_1_0_0_n_n.lhsIdx_val_of_single rfl i k
theorem hr_rhs_0 (i : S512x256.Idx) (k : dot_S512x2048_S256x2048_S512x256_1_1_0_0_n_n.contr.Idx) :
    (dot_S512x2048_S256x2048_S512x256_1_1_0_0_n_n.rhsIdx i k 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem hr_rhs_1 (i : S512x256.Idx) (k : dot_S512x2048_S256x2048_S512x256_1_1_0_0_n_n.contr.Idx) :
    (dot_S512x2048_S256x2048_S512x256_1_1_0_0_n_n.rhsIdx i k 1).val = (k ⟨0, by decide⟩).val :=
  dot_S512x2048_S256x2048_S512x256_1_1_0_0_n_n.rhsIdx_val_of_single rfl i k

/-- The recurrent product at `(p, q)`: row `p` of the hidden-state block against row `q` of the recurrent weight block. -/
theorem hr_apply (h : FVec Ideal S512x2048 .bf16) (r : FVec Ideal S256x2048 .bf16) (p : Fin 512) (q : Fin 256) :
    matmul dot_S512x2048_S256x2048_S512x256_1_1_0_0_n_n none h r (constant (F := Ideal) S512x256 .f32 0x00000000#32) (ix2 p q)
      = ∑ k : Fin 2048, h (ix2 p k) * r (ix2 q k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p q) ((ValueIdx.contrEquiv1 dot_S512x2048_S256x2048_S512x256_1_1_0_0_n_n 2048 rfl rfl).symm k) = ix2 p k := funext fun a => Fin.ext (by
    match a with
    | ⟨0, _⟩ => exact hr_lhs_0 _ _
    | ⟨1, _⟩ => exact (hr_lhs_1 _ _).trans hk)
  have er : dot_S512x2048_S256x2048_S512x256_1_1_0_0_n_n.rhsIdx (ix2 p q) ((ValueIdx.contrEquiv1 dot_S512x2048_S256x2048_S512x256_1_1_0_0_n_n 2048 rfl rfl).symm k) = ix2 q k := funext fun a => Fin.ext (by
    match a with
    | ⟨0, _⟩ => exact hr_rhs_0 _ _
    | ⟨1, _⟩ => exact (hr_rhs_1 _ _).trans hk)
  rw [el, er]

/-! ## One gate over a block -/

/-- A gate's pre-activation over the whole block, as the body writes it. -/
def gateVec (x : FVec Ideal S512x1024 .bf16) (h : FVec Ideal S512x2048 .bf16) (w : FVec Ideal S256x1024 .bf16)
    (r : FVec Ideal S256x2048 .bf16) (b : FVec Ideal S1x256 .f32) : FVec Ideal S512x256 .f32 :=
  addf (addf (matmul dot_S512x1024_S256x1024_S512x256_1_1_0_0_n_n none x w (constant S512x256 .f32 0x00000000#32))
      (matmul dot_S512x2048_S256x2048_S512x256_1_1_0_0_n_n none h r (constant S512x256 .f32 0x00000000#32)))
    (broadcastTo S512x256 b broadcasts_S1x256_S512x256)

/-- The same from rows: the row form of the specification's pre-activation, inside the block. -/
def blkGate (x : FVec Ideal S512x1024 .bf16) (h : FVec Ideal S512x2048 .bf16) (w : FVec Ideal S256x1024 .bf16)
    (r : FVec Ideal S256x2048 .bf16) (b : FVec Ideal S1x256 .f32) (p : Fin 512) (q : Fin 256) : EReal :=
  rowGate (fun k => x (ix2 p k)) (fun k => w (ix2 q k)) (fun k => h (ix2 p k)) (fun k => r (ix2 q k)) (b (ix2 (0 : Fin 1) q))

theorem gateVec_apply (x : FVec Ideal S512x1024 .bf16) (h : FVec Ideal S512x2048 .bf16) (w : FVec Ideal S256x1024 .bf16)
    (r : FVec Ideal S256x2048 .bf16) (b : FVec Ideal S1x256 .f32) (p : Fin 512) (q : Fin 256) :
    gateVec x h w r b (ix2 p q) = blkGate x h w r b p q := by
  unfold gateVec blkGate rowGate
  rw [addf_apply, addf_apply, xw_apply, hr_apply]
  congr 1
  exact broadcastTo_apply b broadcasts_S1x256_S512x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-! ## The payloads -/

theorem pay4_eq (x0 : Vec Ideal S512x1024 .bf16) (x1 : Vec Ideal S512x2048 .bf16) (w : Vec Ideal S256x1024 .bf16)
    (r : Vec Ideal S256x2048 .bf16) (b : Vec Ideal S1x256 .f32) : k0_pay4 x0 x1 w r b = gateVec x0 x1 w r b := by
  unfold k0_pay4 k0_pay2 k0_pay3 gateVec
  simp only [shapeCast_self]

theorem pay5_eq (x0 : Vec Ideal S512x1024 .bf16) (x1 : Vec Ideal S512x2048 .bf16) (w : Vec Ideal S256x1024 .bf16)
    (r : Vec Ideal S256x2048 .bf16) (b : Vec Ideal S1x256 .f32) : k0_pay5 x0 x1 w r b = gateVec x0 x1 w r b := by
  unfold k0_pay5 k0_pay2 k0_pay3 gateVec
  simp only [shapeCast_self]

/-- The stored block at entry `(p, q)`: the state update of the four gates' row sums and the two state entries. -/
theorem body_apply (x0 : Vec Ideal S512x1024 .bf16) (x1 : Vec Ideal S512x2048 .bf16) (x2 x3 : Vec Ideal S512x256 .f32)
    (x4 x5 x6 x7 : Vec Ideal S256x1024 .bf16) (x8 x9 x10 x11 : Vec Ideal S256x2048 .bf16) (x12 x13 x14 x15 : Vec Ideal S1x256 .f32)
    (p : Fin 512) (q : Fin 256) :
    k0_pay1 (k0_pay2 x0) (k0_pay3 x1) x2 x3 (k0_pay4 x0 x1 x4 x8 x12) (k0_pay5 x0 x1 x5 x9 x13) (k0_pay6 x6) x10 x14 x7 x11 x15 (ix2 p q)
      = cell (blkGate x0 x1 x4 x8 x12 p q) (blkGate x0 x1 x5 x9 x13 p q) (blkGate x0 x1 x6 x10 x14 p q)
          (blkGate x0 x1 x7 x11 x15 p q) (x2 (ix2 p q)) (x3 (ix2 p q)) := by
  have e : k0_pay1 (k0_pay2 x0) (k0_pay3 x1) x2 x3 (k0_pay4 x0 x1 x4 x8 x12) (k0_pay5 x0 x1 x5 x9 x13) (k0_pay6 x6) x10 x14 x7 x11 x15
      = mulf (logistic (gateVec x0 x1 x7 x11 x15))
          (divf (addf (mulf (exp (gateVec x0 x1 x6 x10 x14)) x2) (mulf (exp (gateVec x0 x1 x5 x9 x13)) (tanh (gateVec x0 x1 x4 x8 x12))))
            (addf (mulf (exp (gateVec x0 x1 x6 x10 x14)) x3) (exp (gateVec x0 x1 x5 x9 x13)))) := by
    rw [pay4_eq, pay5_eq]
    unfold k0_pay1 k0_pay2 k0_pay3 k0_pay6 gateVec
    simp only [shapeCast_self]
  rw [e]
  show Ideal.logistic (gateVec x0 x1 x7 x11 x15 (ix2 p q))
      * Ideal.div (Ideal.exp (gateVec x0 x1 x6 x10 x14 (ix2 p q)) * x2 (ix2 p q) + Ideal.exp (gateVec x0 x1 x5 x9 x13 (ix2 p q)) * Ideal.tanh (gateVec x0 x1 x4 x8 x12 (ix2 p q)))
          (Ideal.exp (gateVec x0 x1 x6 x10 x14 (ix2 p q)) * x3 (ix2 p q) + Ideal.exp (gateVec x0 x1 x5 x9 x13 (ix2 p q))) = _
  rw [gateVec_apply, gateVec_apply, gateVec_apply, gateVec_apply]
  rfl

end Cert.KernelIdeal.CellStep

end
-- ==== Proof.KernelBlocks.lean ====
/-
  From the blocks to the whole array: the kernel's run ends with its result array at the cell step of its arguments.

  The grid is 8 × 8: point (i, j) works on batch rows 512·i … 512·i + 511 and hidden units 256·j … 256·j + 255. Its
  input block and previous-hidden-state block are rows 512·i … of arrays the host has only changed the float format of
  (the identity on the extended reals); its weight blocks are rows 256·j … of each gate's weights, likewise converted;
  its bias blocks are entries 256·j … of each bias vector, which the host has reshaped to one row; and its cell and
  normalizer blocks are the (i, j) blocks of the arguments themselves. So entry (p, q) of what the point writes back is
  the specification at array position (512·i + p, 256·j + q), and the 64 output blocks tile the array.
-/
import proofs.«143511_j54047868453103_1_alg».proof.Proof.Gen.KernelIdeal.Value
import proofs.«143511_j54047868453103_1_alg».proof.Proof.KernelBody
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.CellStep

open Cert.KernelIdeal Cert.KernelIdeal.Gen Idealize.ShloMosaic Idealize.ShloMosaic.TcCoe Idealize.SL.Sem Idealize.ShloMosaic.ValueIdx
open Idealize.ShloMosaic.Pipeline (Dat)
open Cert.SlstmSpec

/-! ## What the host leaves in the arrays the region reads -/

section HostPrefix
variable {F : FTy → Type} [FloatOps F] (m : (ℓ : Loc nD τ sig) → Buf (Elt F) ℓ)

/-- The region finds `main_v0` at the format change of `main_arg0`. -/
theorem V_main_v0 (c : Dev nD) : (V m c main_v0 : S4096x1024.Idx → Elt F .bf16) = truncf .bf16 (m ((c : Thread nD τ).loc main_arg0)) bitsLt_bf16_f32 := by
  dsimp only [Gen.V, Gen.hostOps0]; after_results; try rfl
/-- The region finds `main_v1` at the format change of `main_arg1`. -/
theorem V_main_v1 (c : Dev nD) : (V m c main_v1 : S4096x2048.Idx → Elt F .bf16) = truncf .bf16 (m ((c : Thread nD τ).loc main_arg1)) bitsLt_bf16_f32 := by
  dsimp only [Gen.V, Gen.hostOps0]; after_results; try rfl
/-- The region finds `main_v2` at the format change of `main_arg4`. -/
theorem V_main_v2 (c : Dev nD) : (V m c main_v2 : S2048x1024.Idx → Elt F .bf16) = truncf .bf16 (m ((c : Thread nD τ).loc main_arg4)) bitsLt_bf16_f32 := by
  dsimp only [Gen.V, Gen.hostOps0]; after_results; try rfl
/-- The region finds `main_v3` at the format change of `main_arg5`. -/
theorem V_main_v3 (c : Dev nD) : (V m c main_v3 : S2048x1024.Idx → Elt F .bf16) = truncf .bf16 (m ((c : Thread nD τ).loc main_arg5)) bitsLt_bf16_f32 := by
  dsimp only [Gen.V, Gen.hostOps0]; after_results; try rfl
/-- The region finds `main_v4` at the format change of `main_arg6`. -/
theorem V_main_v4 (c : Dev nD) : (V m c main_v4 : S2048x1024.Idx → Elt F .bf16) = truncf .bf16 (m ((c : Thread nD τ).loc main_arg6)) bitsLt_bf16_f32 := by
  dsimp only [Gen.V, Gen.hostOps0]; after_results; try rfl
/-- The region finds `main_v5` at the format change of `main_arg7`. -/
theorem V_main_v5 (c : Dev nD) : (V m c main_v5 : S2048x1024.Idx → Elt F .bf16) = truncf .bf16 (m ((c : Thread nD τ).loc main_arg7)) bitsLt_bf16_f32 := by
  dsimp only [Gen.V, Gen.hostOps0]; after_results; try rfl
/-- The region finds `main_v6` at the format change of `main_arg12`. -/
theorem V_main_v6 (c : Dev nD) : (V m c main_v6 : S2048x2048.Idx → Elt F .bf16) = truncf .bf16 (m ((c : Thread nD τ).loc main_arg12)) bitsLt_bf16_f32 := by
  dsimp only [Gen.V, Gen.hostOps0]; after_results; try rfl
/-- The region finds `main_v7` at the format change of `main_arg13`. -/
theorem V_main_v7 (c : Dev nD) : (V m c main_v7 : S2048x2048.Idx → Elt F .bf16) = truncf .bf16 (m ((c : Thread nD τ).loc main_arg13)) bitsLt_bf16_f32 := by
  dsimp only [Gen.V, Gen.hostOps0]; after_results; try rfl
/-- The region finds `main_v8` at the format change of `main_arg14`. -/
theorem V_main_v8 (c : Dev nD) : (V m c main_v8 : S2048x2048.Idx → Elt F .bf16) = truncf .bf16 (m ((c : Thread nD τ).loc main_arg14)) bitsLt_bf16_f32 := by
  dsimp only [Gen.V, Gen.hostOps0]; after_results; try rfl
/-- The region finds `main_v9` at the format change of `main_arg15`. -/
theorem V_main_v9 (c : Dev nD) : (V m c main_v9 : S2048x2048.Idx → Elt F .bf16) = truncf .bf16 (m ((c : Thread nD τ).loc main_arg15)) bitsLt_bf16_f32 := by
  dsimp only [Gen.V, Gen.hostOps0]; after_results; try rfl
/-- The region finds `main_v10` at the one-row reshape of `main_arg8`. -/
theorem V_main_v10 (c : Dev nD) : (V m c main_v10 : S1x2048.Idx → Elt F .f32) = shapeCast S1x2048 (m ((c : Thread nD τ).loc main_arg8)) shapeCasts_S2048_S1x2048 := by
  dsimp only [Gen.V, Gen.hostOps0]; after_results; try rfl
/-- The region finds `main_v11` at the one-row reshape of `main_arg9`. -/
theorem V_main_v11 (c : Dev nD) : (V m c main_v11 : S1x2048.Idx → Elt F .f32) = shapeCast S1x2048 (m ((c : Thread nD τ).loc main_arg9)) shapeCasts_S2048_S1x2048 := by
  dsimp only [Gen.V, Gen.hostOps0]; after_results; try rfl
/-- The region finds `main_v12` at the one-row reshape of `main_arg10`. -/
theorem V_main_v12 (c : Dev nD) : (V m c main_v12 : S1x2048.Idx → Elt F .f32) = shapeCast S1x2048 (m ((c : Thread nD τ).loc main_arg10)) shapeCasts_S2048_S1x2048 := by
  dsimp only [Gen.V, Gen.hostOps0]; after_results; try rfl
/-- The region finds `main_v13` at the one-row reshape of `main_arg11`. -/
theorem V_main_v13 (c : Dev nD) : (V m c main_v13 : S1x2048.Idx → Elt F .f32) = shapeCast S1x2048 (m ((c : Thread nD τ).loc main_arg11)) shapeCasts_S2048_S1x2048 := by
  dsimp only [Gen.V, Gen.hostOps0]; after_results; try rfl

end HostPrefix

variable (m : (ℓ : Loc nD τ sig) → Buf (Elt Ideal) ℓ) (ρ : Dev nD → PrngReg)

/-! ## The index maps over the grid -/

theorem hz : (![0, 0] : Fin 2 → Nat) = fun _ => 0 := funext fun a => by fin_cases a <;> rfl

/-- The printed index maps, decided over the 64 grid points: the row blocks follow the output's row block, the weight
    and bias blocks its column block, and the full-width windows sit at column block 0. -/
theorem idx_facts : ∀ t : Fin cfg0.N,
    (win0_0.index t (0 : Fin 2) = win0_16.index t (0 : Fin 2) ∧ win0_0.index t (1 : Fin 2) = 0)
    ∧ (win0_1.index t (0 : Fin 2) = win0_16.index t (0 : Fin 2) ∧ win0_1.index t (1 : Fin 2) = 0)
    ∧ (win0_2.index t (0 : Fin 2) = win0_16.index t (0 : Fin 2) ∧ win0_2.index t (1 : Fin 2) = win0_16.index t (1 : Fin 2))
    ∧ (win0_3.index t (0 : Fin 2) = win0_16.index t (0 : Fin 2) ∧ win0_3.index t (1 : Fin 2) = win0_16.index t (1 : Fin 2))
    ∧ (win0_4.index t (0 : Fin 2) = win0_16.index t (1 : Fin 2) ∧ win0_4.index t (1 : Fin 2) = 0)
    ∧ (win0_5.index t (0 : Fin 2) = win0_16.index t (1 : Fin 2) ∧ win0_5.index t (1 : Fin 2) = 0)
    ∧ (win0_6.index t (0 : Fin 2) = win0_16.index t (1 : Fin 2) ∧ win0_6.index t (1 : Fin 2) = 0)
    ∧ (win0_7.index t (0 : Fin 2) = win0_16.index t (1 : Fin 2) ∧ win0_7.index t (1 : Fin 2) = 0)
    ∧ (win0_8.index t (0 : Fin 2) = win0_16.index t (1 : Fin 2) ∧ win0_8.index t (1 : Fin 2) = 0)
    ∧ (win0_9.index t (0 : Fin 2) = win0_16.index t (1 : Fin 2) ∧ win0_9.index t (1 : Fin 2) = 0)
    ∧ (win0_10.index t (0 : Fin 2) = win0_16.index t (1 : Fin 2) ∧ win0_10.index t (1 : Fin 2) = 0)
    ∧ (win0_11.index t (0 : Fin 2) = win0_16.index t (1 : Fin 2) ∧ win0_11.index t (1 : Fin 2) = 0)
    ∧ (win0_12.index t (0 : Fin 2) = 0 ∧ win0_12.index t (1 : Fin 2) = win0_16.index t (1 : Fin 2))
    ∧ (win0_13.index t (0 : Fin 2) = 0 ∧ win0_13.index t (1 : Fin 2) = win0_16.index t (1 : Fin 2))
    ∧ (win0_14.index t (0 : Fin 2) = 0 ∧ win0_14.index t (1 : Fin 2) = win0_16.index t (1 : Fin 2))
    ∧ (win0_15.index t (0 : Fin 2) = 0 ∧ win0_15.index t (1 : Fin 2) = win0_16.index t (1 : Fin 2))
    ∧ win0_16.index t (0 : Fin 2) ≤ 7 ∧ win0_16.index t (1 : Fin 2) ≤ 7 :=
  (by decide +kernel : ∀ t : Fin grid0.N, _)

/-- Every output block is some point's. -/
theorem idx_onto : ∀ (q0 : Fin 8) (q1 : Fin 8), ∃ t : Fin cfg0.N, win0_16.index t = ![q0.val, q1.val] :=
  (by decide +kernel : ∀ (q0 : Fin 8) (q1 : Fin 8), ∃ t : Fin grid0.N, win0_16.index t = ![q0.val, q1.val])

/-! ## Each window's block, read at an entry -/

/-- Row `p` of the input's block at point `t` is row `P` of the argument, `P` the block's row offset plus `p`. -/
theorem blk_0 (c : Dev nD) (t : Fin cfg0.N) (p : Fin 512) (k : Fin 1024) (P : Fin 4096)
    (hP : P.val = win0_16.index t (0 : Fin 2) * 512 + p.val) :
    (iblk m c 0 t : Vec Ideal S512x1024 .bf16) (ix2 p k) = m ((c : Thread nD τ).loc main_arg0) (ix2 P k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v0 (((cfg0.win 0).blk t).view.emb (ix2 p k)) = _
  rw [V_main_v0]
  show m ((c : Thread nD τ).loc main_arg0) (((cfg0.win 0).blk t).view.emb (ix2 p k)) = _
  congr 1
  funext a
  apply Fin.ext
  match a with
  | ⟨0, _⟩ => show win0_0.index t (0 : Fin 2) * 512 + 1 * p.val = P.val; omega
  | ⟨1, _⟩ => show win0_0.index t (1 : Fin 2) * 1024 + 1 * k.val = k.val; omega

/-- Row `p` of the previous hidden state's block at point `t` is row `P` of the argument, `P` the block's row offset plus `p`. -/
theorem blk_1 (c : Dev nD) (t : Fin cfg0.N) (p : Fin 512) (k : Fin 2048) (P : Fin 4096)
    (hP : P.val = win0_16.index t (0 : Fin 2) * 512 + p.val) :
    (iblk m c 1 t : Vec Ideal S512x2048 .bf16) (ix2 p k) = m ((c : Thread nD τ).loc main_arg1) (ix2 P k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v1 (((cfg0.win 1).blk t).view.emb (ix2 p k)) = _
  rw [V_main_v1]
  show m ((c : Thread nD τ).loc main_arg1) (((cfg0.win 1).blk t).view.emb (ix2 p k)) = _
  congr 1
  funext a
  apply Fin.ext
  match a with
  | ⟨0, _⟩ => show win0_1.index t (0 : Fin 2) * 512 + 1 * p.val = P.val; omega
  | ⟨1, _⟩ => show win0_1.index t (1 : Fin 2) * 2048 + 1 * k.val = k.val; omega

/-- Entry `(p, q)` of the previous cell state's block at point `t` is the argument at the output position. -/
theorem blk_2 (c : Dev nD) (t : Fin cfg0.N) (p : Fin 512) (q : Fin 256) (I : S4096x2048.Idx)
    (hI0 : (I 0).val = win0_16.index t (0 : Fin 2) * 512 + p.val) (hI1 : (I 1).val = win0_16.index t (1 : Fin 2) * 256 + q.val) :
    (iblk m c 2 t : Vec Ideal S512x256 .f32) (ix2 p q) = m ((c : Thread nD τ).loc main_arg2) I := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_arg2 (((cfg0.win 2).blk t).view.emb (ix2 p q)) = _
  rw [V_main_arg2]
  congr 1
  funext a
  apply Fin.ext
  match a with
  | ⟨0, _⟩ => show win0_2.index t (0 : Fin 2) * 512 + 1 * p.val = (I 0).val; omega
  | ⟨1, _⟩ => show win0_2.index t (1 : Fin 2) * 256 + 1 * q.val = (I 1).val; omega

/-- Entry `(p, q)` of the previous normalizer state's block at point `t` is the argument at the output position. -/
theorem blk_3 (c : Dev nD) (t : Fin cfg0.N) (p : Fin 512) (q : Fin 256) (I : S4096x2048.Idx)
    (hI0 : (I 0).val = win0_16.index t (0 : Fin 2) * 512 + p.val) (hI1 : (I 1).val = win0_16.index t (1 : Fin 2) * 256 + q.val) :
    (iblk m c 3 t : Vec Ideal S512x256 .f32) (ix2 p q) = m ((c : Thread nD τ).loc main_arg3) I := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_arg3 (((cfg0.win 3).blk t).view.emb (ix2 p q)) = _
  rw [V_main_arg3]
  congr 1
  funext a
  apply Fin.ext
  match a with
  | ⟨0, _⟩ => show win0_3.index t (0 : Fin 2) * 512 + 1 * p.val = (I 0).val; omega
  | ⟨1, _⟩ => show win0_3.index t (1 : Fin 2) * 256 + 1 * q.val = (I 1).val; omega

/-- Row `q` of window 4's block of input weights at point `t` is row `Q` of the argument, `Q` the block's offset plus `q`. -/
theorem blk_4 (c : Dev nD) (t : Fin cfg0.N) (q : Fin 256) (k : Fin 1024) (Q : Fin 2048)
    (hQ : Q.val = win0_16.index t (1 : Fin 2) * 256 + q.val) :
    (iblk m c 4 t : Vec Ideal S256x1024 .bf16) (ix2 q k) = m ((c : Thread nD τ).loc main_arg4) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v2 (((cfg0.win 4).blk t).view.emb (ix2 q k)) = _
  rw [V_main_v2]
  show m ((c : Thread nD τ).loc main_arg4) (((cfg0.win 4).blk t).view.emb (ix2 q k)) = _
  congr 1
  funext a
  apply Fin.ext
  match a with
  | ⟨0, _⟩ => show win0_4.index t (0 : Fin 2) * 256 + 1 * q.val = Q.val; omega
  | ⟨1, _⟩ => show win0_4.index t (1 : Fin 2) * 1024 + 1 * k.val = k.val; omega

/-- Row `q` of window 8's block of recurrent weights at point `t` is row `Q` of the argument, `Q` the block's offset plus `q`. -/
theorem blk_8 (c : Dev nD) (t : Fin cfg0.N) (q : Fin 256) (k : Fin 2048) (Q : Fin 2048)
    (hQ : Q.val = win0_16.index t (1 : Fin 2) * 256 + q.val) :
    (iblk m c 8 t : Vec Ideal S256x2048 .bf16) (ix2 q k) = m ((c : Thread nD τ).loc main_arg12) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v6 (((cfg0.win 8).blk t).view.emb (ix2 q k)) = _
  rw [V_main_v6]
  show m ((c : Thread nD τ).loc main_arg12) (((cfg0.win 8).blk t).view.emb (ix2 q k)) = _
  congr 1
  funext a
  apply Fin.ext
  match a with
  | ⟨0, _⟩ => show win0_8.index t (0 : Fin 2) * 256 + 1 * q.val = Q.val; omega
  | ⟨1, _⟩ => show win0_8.index t (1 : Fin 2) * 2048 + 1 * k.val = k.val; omega

/-- Row `q` of window 5's block of input weights at point `t` is row `Q` of the argument, `Q` the block's offset plus `q`. -/
theorem blk_5 (c : Dev nD) (t : Fin cfg0.N) (q : Fin 256) (k : Fin 1024) (Q : Fin 2048)
    (hQ : Q.val = win0_16.index t (1 : Fin 2) * 256 + q.val) :
    (iblk m c 5 t : Vec Ideal S256x1024 .bf16) (ix2 q k) = m ((c : Thread nD τ).loc main_arg5) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v3 (((cfg0.win 5).blk t).view.emb (ix2 q k)) = _
  rw [V_main_v3]
  show m ((c : Thread nD τ).loc main_arg5) (((cfg0.win 5).blk t).view.emb (ix2 q k)) = _
  congr 1
  funext a
  apply Fin.ext
  match a with
  | ⟨0, _⟩ => show win0_5.index t (0 : Fin 2) * 256 + 1 * q.val = Q.val; omega
  | ⟨1, _⟩ => show win0_5.index t (1 : Fin 2) * 1024 + 1 * k.val = k.val; omega

/-- Row `q` of window 9's block of recurrent weights at point `t` is row `Q` of the argument, `Q` the block's offset plus `q`. -/
theorem blk_9 (c : Dev nD) (t : Fin cfg0.N) (q : Fin 256) (k : Fin 2048) (Q : Fin 2048)
    (hQ : Q.val = win0_16.index t (1 : Fin 2) * 256 + q.val) :
    (iblk m c 9 t : Vec Ideal S256x2048 .bf16) (ix2 q k) = m ((c : Thread nD τ).loc main_arg13) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v7 (((cfg0.win 9).blk t).view.emb (ix2 q k)) = _
  rw [V_main_v7]
  show m ((c : Thread nD τ).loc main_arg13) (((cfg0.win 9).blk t).view.emb (ix2 q k)) = _
  congr 1
  funext a
  apply Fin.ext
  match a with
  | ⟨0, _⟩ => show win0_9.index t (0 : Fin 2) * 256 + 1 * q.val = Q.val; omega
  | ⟨1, _⟩ => show win0_9.index t (1 : Fin 2) * 2048 + 1 * k.val = k.val; omega

/-- Row `q` of window 6's block of input weights at point `t` is row `Q` of the argument, `Q` the block's offset plus `q`. -/
theorem blk_6 (c : Dev nD) (t : Fin cfg0.N) (q : Fin 256) (k : Fin 1024) (Q : Fin 2048)
    (hQ : Q.val = win0_16.index t (1 : Fin 2) * 256 + q.val) :
    (iblk m c 6 t : Vec Ideal S256x1024 .bf16) (ix2 q k) = m ((c : Thread nD τ).loc main_arg6) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v4 (((cfg0.win 6).blk t).view.emb (ix2 q k)) = _
  rw [V_main_v4]
  show m ((c : Thread nD τ).loc main_arg6) (((cfg0.win 6).blk t).view.emb (ix2 q k)) = _
  congr 1
  funext a
  apply Fin.ext
  match a with
  | ⟨0, _⟩ => show win0_6.index t (0 : Fin 2) * 256 + 1 * q.val = Q.val; omega
  | ⟨1, _⟩ => show win0_6.index t (1 : Fin 2) * 1024 + 1 * k.val = k.val; omega

/-- Row `q` of window 10's block of recurrent weights at point `t` is row `Q` of the argument, `Q` the block's offset plus `q`. -/
theorem blk_10 (c : Dev nD) (t : Fin cfg0.N) (q : Fin 256) (k : Fin 2048) (Q : Fin 2048)
    (hQ : Q.val = win0_16.index t (1 : Fin 2) * 256 + q.val) :
    (iblk m c 10 t : Vec Ideal S256x2048 .bf16) (ix2 q k) = m ((c : Thread nD τ).loc main_arg14) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v8 (((cfg0.win 10).blk t).view.emb (ix2 q k)) = _
  rw [V_main_v8]
  show m ((c : Thread nD τ).loc main_arg14) (((cfg0.win 10).blk t).view.emb (ix2 q k)) = _
  congr 1
  funext a
  apply Fin.ext
  match a with
  | ⟨0, _⟩ => show win0_10.index t (0 : Fin 2) * 256 + 1 * q.val = Q.val; omega
  | ⟨1, _⟩ => show win0_10.index t (1 : Fin 2) * 2048 + 1 * k.val = k.val; omega

/-- Row `q` of window 7's block of input weights at point `t` is row `Q` of the argument, `Q` the block's offset plus `q`. -/
theorem blk_7 (c : Dev nD) (t : Fin cfg0.N) (q : Fin 256) (k : Fin 1024) (Q : Fin 2048)
    (hQ : Q.val = win0_16.index t (1 : Fin 2) * 256 + q.val) :
    (iblk m c 7 t : Vec Ideal S256x1024 .bf16) (ix2 q k) = m ((c : Thread nD τ).loc main_arg7) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v5 (((cfg0.win 7).blk t).view.emb (ix2 q k)) = _
  rw [V_main_v5]
  show m ((c : Thread nD τ).loc main_arg7) (((cfg0.win 7).blk t).view.emb (ix2 q k)) = _
  congr 1
  funext a
  apply Fin.ext
  match a with
  | ⟨0, _⟩ => show win0_7.index t (0 : Fin 2) * 256 + 1 * q.val = Q.val; omega
  | ⟨1, _⟩ => show win0_7.index t (1 : Fin 2) * 1024 + 1 * k.val = k.val; omega

/-- Row `q` of window 11's block of recurrent weights at point `t` is row `Q` of the argument, `Q` the block's offset plus `q`. -/
theorem blk_11 (c : Dev nD) (t : Fin cfg0.N) (q : Fin 256) (k : Fin 2048) (Q : Fin 2048)
    (hQ : Q.val = win0_16.index t (1 : Fin 2) * 256 + q.val) :
    (iblk m c 11 t : Vec Ideal S256x2048 .bf16) (ix2 q k) = m ((c : Thread nD τ).loc main_arg15) (ix2 Q k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v9 (((cfg0.win 11).blk t).view.emb (ix2 q k)) = _
  rw [V_main_v9]
  show m ((c : Thread nD τ).loc main_arg15) (((cfg0.win 11).blk t).view.emb (ix2 q k)) = _
  congr 1
  funext a
  apply Fin.ext
  match a with
  | ⟨0, _⟩ => show win0_11.index t (0 : Fin 2) * 256 + 1 * q.val = Q.val; omega
  | ⟨1, _⟩ => show win0_11.index t (1 : Fin 2) * 2048 + 1 * k.val = k.val; omega

/-- Entry `q` of window 12's one-row bias block at point `t` is entry `Q` of the bias vector. -/
theorem blk_12 (c : Dev nD) (t : Fin cfg0.N) (q : Fin 256) (Q : Fin 2048)
    (hQ : Q.val = win0_16.index t (1 : Fin 2) * 256 + q.val) :
    (iblk m c 12 t : Vec Ideal S1x256 .f32) (ix2 (0 : Fin 1) q) = m ((c : Thread nD τ).loc main_arg8) (ix1 Q) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v10 (((cfg0.win 12).blk t).view.emb (ix2 (0 : Fin 1) q)) = _
  rw [V_main_v10]
  refine (shapeCast_addUnit_apply ![2048] (m ((c : Thread nD τ).loc main_arg8)) shapeCasts_S2048_S1x2048 _).trans ?_
  congr 1
  funext a
  apply Fin.ext
  match a with
  | ⟨0, _⟩ => show win0_12.index t (1 : Fin 2) * 256 + 1 * q.val = Q.val; omega

/-- Entry `q` of window 13's one-row bias block at point `t` is entry `Q` of the bias vector. -/
theorem blk_13 (c : Dev nD) (t : Fin cfg0.N) (q : Fin 256) (Q : Fin 2048)
    (hQ : Q.val = win0_16.index t (1 : Fin 2) * 256 + q.val) :
    (iblk m c 13 t : Vec Ideal S1x256 .f32) (ix2 (0 : Fin 1) q) = m ((c : Thread nD τ).loc main_arg9) (ix1 Q) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v11 (((cfg0.win 13).blk t).view.emb (ix2 (0 : Fin 1) q)) = _
  rw [V_main_v11]
  refine (shapeCast_addUnit_apply ![2048] (m ((c : Thread nD τ).loc main_arg9)) shapeCasts_S2048_S1x2048 _).trans ?_
  congr 1
  funext a
  apply Fin.ext
  match a with
  | ⟨0, _⟩ => show win0_13.index t (1 : Fin 2) * 256 + 1 * q.val = Q.val; omega

/-- Entry `q` of window 14's one-row bias block at point `t` is entry `Q` of the bias vector. -/
theorem blk_14 (c : Dev nD) (t : Fin cfg0.N) (q : Fin 256) (Q : Fin 2048)
    (hQ : Q.val = win0_16.index t (1 : Fin 2) * 256 + q.val) :
    (iblk m c 14 t : Vec Ideal S1x256 .f32) (ix2 (0 : Fin 1) q) = m ((c : Thread nD τ).loc main_arg10) (ix1 Q) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v12 (((cfg0.win 14).blk t).view.emb (ix2 (0 : Fin 1) q)) = _
  rw [V_main_v12]
  refine (shapeCast_addUnit_apply ![2048] (m ((c : Thread nD τ).loc main_arg10)) shapeCasts_S2048_S1x2048 _).trans ?_
  congr 1
  funext a
  apply Fin.ext
  match a with
  | ⟨0, _⟩ => show win0_14.index t (1 : Fin 2) * 256 + 1 * q.val = Q.val; omega

/-- Entry `q` of window 15's one-row bias block at point `t` is entry `Q` of the bias vector. -/
theorem blk_15 (c : Dev nD) (t : Fin cfg0.N) (q : Fin 256) (Q : Fin 2048)
    (hQ : Q.val = win0_16.index t (1 : Fin 2) * 256 + q.val) :
    (iblk m c 15 t : Vec Ideal S1x256 .f32) (ix2 (0 : Fin 1) q) = m ((c : Thread nD τ).loc main_arg11) (ix1 Q) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩, ⟨e13a, e13b⟩, ⟨e14a, e14b⟩, ⟨e15a, e15b⟩, b0, b1⟩ := idx_facts t
  unfold iblk
  rw [View.read_apply]
  show V m c main_v13 (((cfg0.win 15).blk t).view.emb (ix2 (0 : Fin 1) q)) = _
  rw [V_main_v13]
  refine (shapeCast_addUnit_apply ![2048] (m ((c : Thread nD τ).loc main_arg11)) shapeCasts_S2048_S1x2048 _).trans ?_
  congr 1
  funext a
  apply Fin.ext
  match a with
  | ⟨0, _⟩ => show win0_15.index t (1 : Fin 2) * 256 + 1 * q.val = Q.val; omega

/-! ## A gate inside a block is the gate of the whole arrays -/

/-- Gate z: the block's row sums are the arrays' row sums at the output position. -/
theorem gate_z (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    blkGate (iblk m c 0 t) (iblk m c 1 t) (iblk m c 4 t) (iblk m c 8 t) (iblk m c 12 t) p q
      = gate (m ((c : Thread nD τ).loc main_arg0)) (m ((c : Thread nD τ).loc main_arg1)) (m ((c : Thread nD τ).loc main_arg4))
          (m ((c : Thread nD τ).loc main_arg12)) (m ((c : Thread nD τ).loc main_arg8)) P Q :=
  congr (congr (congr (congr (congrArg (rowGate (K := 1024) (L := 2048)) (funext fun k => blk_0 m c t p k P hP))
    (funext fun k => blk_4 m c t q k Q hQ)) (funext fun k => blk_1 m c t p k P hP)) (funext fun k => blk_8 m c t q k Q hQ))
    (blk_12 m c t q Q hQ)

/-- Gate i: the block's row sums are the arrays' row sums at the output position. -/
theorem gate_i (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    blkGate (iblk m c 0 t) (iblk m c 1 t) (iblk m c 5 t) (iblk m c 9 t) (iblk m c 13 t) p q
      = gate (m ((c : Thread nD τ).loc main_arg0)) (m ((c : Thread nD τ).loc main_arg1)) (m ((c : Thread nD τ).loc main_arg5))
          (m ((c : Thread nD τ).loc main_arg13)) (m ((c : Thread nD τ).loc main_arg9)) P Q :=
  congr (congr (congr (congr (congrArg (rowGate (K := 1024) (L := 2048)) (funext fun k => blk_0 m c t p k P hP))
    (funext fun k => blk_5 m c t q k Q hQ)) (funext fun k => blk_1 m c t p k P hP)) (funext fun k => blk_9 m c t q k Q hQ))
    (blk_13 m c t q Q hQ)

/-- Gate f: the block's row sums are the arrays' row sums at the output position. -/
theorem gate_f (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    blkGate (iblk m c 0 t) (iblk m c 1 t) (iblk m c 6 t) (iblk m c 10 t) (iblk m c 14 t) p q
      = gate (m ((c : Thread nD τ).loc main_arg0)) (m ((c : Thread nD τ).loc main_arg1)) (m ((c : Thread nD τ).loc main_arg6))
          (m ((c : Thread nD τ).loc main_arg14)) (m ((c : Thread nD τ).loc main_arg10)) P Q :=
  congr (congr (congr (congr (congrArg (rowGate (K := 1024) (L := 2048)) (funext fun k => blk_0 m c t p k P hP))
    (funext fun k => blk_6 m c t q k Q hQ)) (funext fun k => blk_1 m c t p k P hP)) (funext fun k => blk_10 m c t q k Q hQ))
    (blk_14 m c t q Q hQ)

/-- Gate o: the block's row sums are the arrays' row sums at the output position. -/
theorem gate_o (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    blkGate (iblk m c 0 t) (iblk m c 1 t) (iblk m c 7 t) (iblk m c 11 t) (iblk m c 15 t) p q
      = gate (m ((c : Thread nD τ).loc main_arg0)) (m ((c : Thread nD τ).loc main_arg1)) (m ((c : Thread nD τ).loc main_arg7))
          (m ((c : Thread nD τ).loc main_arg15)) (m ((c : Thread nD τ).loc main_arg11)) P Q :=
  congr (congr (congr (congr (congrArg (rowGate (K := 1024) (L := 2048)) (funext fun k => blk_0 m c t p k P hP))
    (funext fun k => blk_7 m c t q k Q hQ)) (funext fun k => blk_1 m c t p k P hP)) (funext fun k => blk_11 m c t q k Q hQ))
    (blk_15 m c t q Q hQ)

/-! ## The result array -/

/-- What the result array holds: the cell step of the sixteen arguments. -/
abbrev result (c : Dev nD) : Buf (Elt Ideal) ((c : Thread nD τ).loc main_v14) :=
  hNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- What point `t` writes back is its block of `result`. -/
theorem flushed_eq (c : Dev nD) (t : Fin cfg0.N) :
    (dats m 0 c).flushed 16 t = ((cfg0.win 16).blk t).view.read (Elt Ideal) (result m c) := by
  rw [Value.flushed16]
  unfold out0_16
  rw [View.canon_unit_zero hz]
  simp only [View.ld_unit_zero (S := S512x1024) hz, View.ld_unit_zero (S := S512x2048) hz, View.ld_unit_zero (S := S512x256) hz,
    View.ld_unit_zero (S := S256x1024) hz, View.ld_unit_zero (S := S256x2048) hz, View.ld_unit_zero (S := S1x256) hz]
  funext j
  obtain ⟨p, q, rfl⟩ : ∃ (p : Fin 512) (q : Fin 256), j = ix2 p q := ⟨j 0, j 1, eq_ix2 j⟩
  have hI0 : ((((cfg0.win 16).blk t).view.emb (ix2 p q) : S4096x2048.Idx) 0).val = win0_16.index t (0 : Fin 2) * 512 + p.val := by
    show win0_16.index t (0 : Fin 2) * 512 + 1 * p.val = _; omega
  have hI1 : ((((cfg0.win 16).blk t).view.emb (ix2 p q) : S4096x2048.Idx) 1).val = win0_16.index t (1 : Fin 2) * 256 + q.val := by
    show win0_16.index t (1 : Fin 2) * 256 + 1 * q.val = _; omega
  show k0_pay1 (k0_pay2 (iblk m c 0 t)) (k0_pay3 (iblk m c 1 t)) (iblk m c 2 t) (iblk m c 3 t)
      (k0_pay4 (iblk m c 0 t) (iblk m c 1 t) (iblk m c 4 t) (iblk m c 8 t) (iblk m c 12 t))
      (k0_pay5 (iblk m c 0 t) (iblk m c 1 t) (iblk m c 5 t) (iblk m c 9 t) (iblk m c 13 t))
      (k0_pay6 (iblk m c 6 t)) (iblk m c 10 t) (iblk m c 14 t) (iblk m c 7 t) (iblk m c 11 t) (iblk m c 15 t) (ix2 p q)
    = result m c (((cfg0.win 16).blk t).view.emb (ix2 p q))
  refine (body_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) p q).trans ?_
  exact congr (congr (congr (congr (congr (congrArg cell (gate_z m c t p q _ _ hI0 hI1)) (gate_i m c t p q _ _ hI0 hI1))
    (gate_f m c t p q _ _ hI0 hI1)) (gate_o m c t p q _ _ hI0 hI1)) (blk_2 m c t p q _ hI0 hI1)) (blk_3 m c t p q _ hI0 hI1)

/-- An index of the array is in point `t`'s block iff each coordinate is in the block's range on its axis. -/
theorem mem_blk (t : Fin cfg0.N) (i : S4096x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v14).slice (win0_16.rect t)).set ↔ _
  rw [View.set_slice_whole, Rect.mem_set_unit]
  exact Iff.rfl

/-- The 64 output blocks cover the array: position `(P, Q)` lies in the block of the point with row block `P / 512` and
    column block `Q / 256`. -/
theorem cover (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- The result array after the run. -/
theorem final (c : Dev nD) : (dats m 0 c).arrAt 16 cfg0.N = result m c :=
  (dats m 0 c).arrAt_eq_of_cover 16 (result m c) (fun t _ => flushed_eq m c t) cover

/-- The kernel's run: every weakly fair execution terminates with the result array at the cell step of the arguments,
    the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.CellStep

end
-- ==== Proof.LibConcat4.lean ====
/-
  A concatenation of FOUR pieces of one shape along the leading axis, read at an index: entry `g · E + q` of the joined
  axis (piece number `g`, offset `q` inside it, `E` the pieces' common extent) is piece `g` at `q`, the other
  coordinates unchanged. Stated for matrices joined by rows and for vectors; generic in the extents and in the element type.
-/
import Idealize.ShloMosaic.Lib.ValueIdx
import Idealize.ShloMosaic.Lib.Pipeline.Value

noncomputable section

namespace Cert.LibConcat4

open Idealize.ShloMosaic Idealize.ShloMosaic.ValueIdx

/-- One of four things, by number. -/
def pick4 {β : Type} (y0 y1 y2 y3 : β) : Fin 4 → β
  | ⟨0, _⟩ => y0
  | ⟨1, _⟩ => y1
  | ⟨2, _⟩ => y2
  | ⟨3, _⟩ => y3

/-- Four `E × C` matrices stacked by rows, read at row `g · E + q`, column `k`: matrix `g` at `(q, k)`. -/
theorem concat4_rows_apply {E C T : Nat} {α : Type} (y0 y1 y2 y3 : (⟨2, ![E, C]⟩ : Shape).Idx → α)
    (h : Shape.Concatenates [(⟨2, ![E, C]⟩ : Shape), ⟨2, ![E, C]⟩, ⟨2, ![E, C]⟩, ⟨2, ![E, C]⟩] ⟨2, ![T, C]⟩ 0)
    (g : Fin 4) (q : Fin E) (k : Fin C) (r : Fin T) (hr : r.val = g.val * E + q.val) :
    concatenate ⟨2, ![T, C]⟩ 0 [⟨⟨2, ![E, C]⟩, y0⟩, ⟨⟨2, ![E, C]⟩, y1⟩, ⟨⟨2, ![E, C]⟩, y2⟩, ⟨⟨2, ![E, C]⟩, y3⟩] h (ix2 r k)
      = pick4 y0 y1 y2 y3 g (ix2 q k) := by
  have off : ∀ b : Fin (⟨2, ![E, C]⟩ : Shape).rank, b.cast (rfl : (2 : Nat) = 2) ≠ (0 : Fin 2) →
      ((ix2 q k : (⟨2, ![E, C]⟩ : Shape).Idx) b).val = ((ix2 r k : (⟨2, ![T, C]⟩ : Shape).Idx) (b.cast rfl)).val := by
    intro b hb
    match b with
    | ⟨0, _⟩ => exact absurd rfl hb
    | ⟨1, _⟩ => rfl
  match g, hr with
  | ⟨0, _⟩, hr =>
    exact concatenate_apply_piece (t := ⟨2, ![T, C]⟩) 0 [⟨⟨2, ![E, C]⟩, y0⟩, ⟨⟨2, ![E, C]⟩, y1⟩, ⟨⟨2, ![E, C]⟩, y2⟩, ⟨⟨2, ![E, C]⟩, y3⟩] h _
      0 (by show 0 < 4; omega) ⟨2, ![E, C]⟩ y0 rfl rfl 0 rfl (ix2 q k) off (by have hr' : r.val = 0 * E + q.val := hr; show 0 + q.val = r.val; omega)
  | ⟨1, _⟩, hr =>
    exact concatenate_apply_piece (t := ⟨2, ![T, C]⟩) 0 [⟨⟨2, ![E, C]⟩, y0⟩, ⟨⟨2, ![E, C]⟩, y1⟩, ⟨⟨2, ![E, C]⟩, y2⟩, ⟨⟨2, ![E, C]⟩, y3⟩] h _
      1 (by show 1 < 4; omega) ⟨2, ![E, C]⟩ y1 rfl rfl (E + 0) rfl (ix2 q k) off (by have hr' : r.val = 1 * E + q.val := hr; show E + 0 + q.val = r.val; omega)
  | ⟨2, _⟩, hr =>
    exact concatenate_apply_piece (t := ⟨2, ![T, C]⟩) 0 [⟨⟨2, ![E, C]⟩, y0⟩, ⟨⟨2, ![E, C]⟩, y1⟩, ⟨⟨2, ![E, C]⟩, y2⟩, ⟨⟨2, ![E, C]⟩, y3⟩] h _
      2 (by show 2 < 4; omega) ⟨2, ![E, C]⟩ y2 rfl rfl (E + (E + 0)) rfl (ix2 q k) off (by have hr' : r.val = 2 * E + q.val := hr; show E + (E + 0) + q.val = r.val; omega)
  | ⟨3, _⟩, hr =>
    exact concatenate_apply_piece (t := ⟨2, ![T, C]⟩) 0 [⟨⟨2, ![E, C]⟩, y0⟩, ⟨⟨2, ![E, C]⟩, y1⟩, ⟨⟨2, ![E, C]⟩, y2⟩, ⟨⟨2, ![E, C]⟩, y3⟩] h _
      3 (by show 3 < 4; omega) ⟨2, ![E, C]⟩ y3 rfl rfl (E + (E + (E + 0))) rfl (ix2 q k) off (by have hr' : r.val = 3 * E + q.val := hr; show E + (E + (E + 0)) + q.val = r.val; omega)

/-- Four vectors of length `E` joined end to end, read at `g · E + q`: vector `g` at `q`. -/
theorem concat4_vec_apply {E T : Nat} {α : Type} (y0 y1 y2 y3 : (⟨1, ![E]⟩ : Shape).Idx → α)
    (h : Shape.Concatenates [(⟨1, ![E]⟩ : Shape), ⟨1, ![E]⟩, ⟨1, ![E]⟩, ⟨1, ![E]⟩] ⟨1, ![T]⟩ 0)
    (g : Fin 4) (q : Fin E) (r : Fin T) (hr : r.val = g.val * E + q.val) :
    concatenate ⟨1, ![T]⟩ 0 [⟨⟨1, ![E]⟩, y0⟩, ⟨⟨1, ![E]⟩, y1⟩, ⟨⟨1, ![E]⟩, y2⟩, ⟨⟨1, ![E]⟩, y3⟩] h (ix1 r)
      = pick4 y0 y1 y2 y3 g (ix1 q) := by
  have off : ∀ b : Fin (⟨1, ![E]⟩ : Shape).rank, b.cast (rfl : (1 : Nat) = 1) ≠ (0 : Fin 1) →
      ((ix1 q : (⟨1, ![E]⟩ : Shape).Idx) b).val = ((ix1 r : (⟨1, ![T]⟩ : Shape).Idx) (b.cast rfl)).val := by
    intro b hb
    match b with
    | ⟨0, _⟩ => exact absurd rfl hb
  match g, hr with
  | ⟨0, _⟩, hr =>
    exact concatenate_apply_piece (t := ⟨1, ![T]⟩) 0 [⟨⟨1, ![E]⟩, y0⟩, ⟨⟨1, ![E]⟩, y1⟩, ⟨⟨1, ![E]⟩, y2⟩, ⟨⟨1, ![E]⟩, y3⟩] h _
      0 (by show 0 < 4; omega) ⟨1, ![E]⟩ y0 rfl rfl 0 rfl (ix1 q) off (by have hr' : r.val = 0 * E + q.val := hr; show 0 + q.val = r.val; omega)
  | ⟨1, _⟩, hr =>
    exact concatenate_apply_piece (t := ⟨1, ![T]⟩) 0 [⟨⟨1, ![E]⟩, y0⟩, ⟨⟨1, ![E]⟩, y1⟩, ⟨⟨1, ![E]⟩, y2⟩, ⟨⟨1, ![E]⟩, y3⟩] h _
      1 (by show 1 < 4; omega) ⟨1, ![E]⟩ y1 rfl rfl (E + 0) rfl (ix1 q) off (by have hr' : r.val = 1 * E + q.val := hr; show E + 0 + q.val = r.val; omega)
  | ⟨2, _⟩, hr =>
    exact concatenate_apply_piece (t := ⟨1, ![T]⟩) 0 [⟨⟨1, ![E]⟩, y0⟩, ⟨⟨1, ![E]⟩, y1⟩, ⟨⟨1, ![E]⟩, y2⟩, ⟨⟨1, ![E]⟩, y3⟩] h _
      2 (by show 2 < 4; omega) ⟨1, ![E]⟩ y2 rfl rfl (E + (E + 0)) rfl (ix1 q) off (by have hr' : r.val = 2 * E + q.val := hr; show E + (E + 0) + q.val = r.val; omega)
  | ⟨3, _⟩, hr =>
    exact concatenate_apply_piece (t := ⟨1, ![T]⟩) 0 [⟨⟨1, ![E]⟩, y0⟩, ⟨⟨1, ![E]⟩, y1⟩, ⟨⟨1, ![E]⟩, y2⟩, ⟨⟨1, ![E]⟩, y3⟩] h _
      3 (by show 3 < 4; omega) ⟨1, ![E]⟩ y3 rfl rfl (E + (E + (E + 0))) rfl (ix1 q) off (by have hr' : r.val = 3 * E + q.val := hr; show E + (E + (E + 0)) + q.val = r.val; omega)

end Cert.LibConcat4

end
-- ==== Proof.RefSide.lean ====
/-
  The reference's result is the cell-step function of its arguments.

  The reference stacks the four gates' input weights (rows 2048·g … 2048·g + 2047 are gate g's), likewise the recurrent
  weights and the biases, forms ONE pre-activation array of 8192 columns — the input product plus the recurrent product
  plus the broadcast bias —, and splits it back into four column bands of 2048. Column `2048·g + q` of that array is
  therefore gate g's pre-activation at hidden unit `q`: the stacked weights' row `2048·g + q` is gate g's row `q`. The
  rest is elementwise, with the logistic function written out as `1 / (1 + e^{-a})`.
-/
import proofs.«143511_j54047868453103_1_alg».proof.Proof.Gen.ReferenceIdeal.Read
import proofs.«143511_j54047868453103_1_alg».proof.Proof.Spec
import proofs.«143511_j54047868453103_1_alg».proof.Proof.LibConcat4

noncomputable section

namespace Cert.ReferenceIdeal.CellStep

open Cert.ReferenceIdeal Cert.ReferenceIdeal.Gen Cert.ReferenceIdeal.Read Idealize.ShloMosaic Idealize.ShloMosaic.ValueIdx
open Cert.SlstmSpec Cert.LibConcat4

/-- Column `2048·g + q` of the stacked pre-activation array, at batch row `p`, is gate `g`'s pre-activation at `(p, q)`. -/
theorem pre_apply (x0 : (⟨S4096x1024, .f32⟩ : BufTy).Contents (Elt Ideal)) (x1 : (⟨S4096x2048, .f32⟩ : BufTy).Contents (Elt Ideal))
    (x4 x5 x6 x7 : (⟨S2048x1024, .f32⟩ : BufTy).Contents (Elt Ideal)) (x8 x9 x10 x11 : (⟨S2048, .f32⟩ : BufTy).Contents (Elt Ideal))
    (x12 x13 x14 x15 : (⟨S2048x2048, .f32⟩ : BufTy).Contents (Elt Ideal))
    (g : Fin 4) (p : Fin 4096) (q : Fin 2048) (i : S4096x8192.Idx) (hi0 : (i 0).val = p.val) (hi1 : (i 1).val = g.val * 2048 + q.val) :
    val_main_v10 (F := Ideal) x0 x1 x4 x5 x6 x7 x8 x9 x10 x11 x12 x13 x14 x15 i
      = gate x0 x1 (pick4 x4 x5 x6 x7 g) (pick4 x12 x13 x14 x15 g) (pick4 x8 x9 x10 x11 g) p q := by
  rw [val_main_v10_apply, val_main_v7_apply, val_main_v4_apply, val_main_v6_apply, val_main_v9_apply, val_main_v8_apply]
  unfold gate rowGate
  show ((∑ k : Fin 1024, _) + (∑ k : Fin 2048, _)) + _ = _
  congr 1
  · congr 1
    · refine Finset.sum_congr rfl fun k _ => ?_
      rw [val_main_v3_apply]
      congr 1
      · exact congrArg x0 (funext fun a => Fin.ext (match a with | ⟨0, _⟩ => hi0 | ⟨1, _⟩ => rfl))
      · have e : idx_main_v3 (ridx_main_v4 i k) = ix2 (i 1) k := funext fun a => match a with | ⟨0, _⟩ => rfl | ⟨1, _⟩ => rfl
        rw [e]
        exact concat4_rows_apply x4 x5 x6 x7 _ g q k (i 1) hi1
    · refine Finset.sum_congr rfl fun k _ => ?_
      rw [val_main_v5_apply]
      congr 1
      · exact congrArg x1 (funext fun a => Fin.ext (match a with | ⟨0, _⟩ => hi0 | ⟨1, _⟩ => rfl))
      · have e : idx_main_v5 (ridx_main_v6 i k) = ix2 (i 1) k := funext fun a => match a with | ⟨0, _⟩ => rfl | ⟨1, _⟩ => rfl
        rw [e]
        exact concat4_rows_apply x12 x13 x14 x15 _ g q k (i 1) hi1
  · have e : idx_main_v8 (idx_main_v9 i) = ix1 (i 1) := funext fun a => match a with | ⟨0, _⟩ => rfl
    rw [e]
    exact concat4_vec_apply x8 x9 x10 x11 _ g q (i 1) hi1

/-- The reference's result array is the cell step of its sixteen arguments. -/
theorem result_eq (x0 : (⟨S4096x1024, .f32⟩ : BufTy).Contents (Elt Ideal)) (x1 x2 x3 : (⟨S4096x2048, .f32⟩ : BufTy).Contents (Elt Ideal))
    (x4 x5 x6 x7 : (⟨S2048x1024, .f32⟩ : BufTy).Contents (Elt Ideal)) (x8 x9 x10 x11 : (⟨S2048, .f32⟩ : BufTy).Contents (Elt Ideal))
    (x12 x13 x14 x15 : (⟨S2048x2048, .f32⟩ : BufTy).Contents (Elt Ideal)) :
    val_main_v30 (F := Ideal) x0 x1 x2 x3 x4 x5 x6 x7 x8 x9 x10 x11 x12 x13 x14 x15
      = hNext x0 x1 x2 x3 x4 x5 x6 x7 x8 x9 x10 x11 x12 x13 x14 x15 := by
  funext j
  have hz := pre_apply x0 x1 x4 x5 x6 x7 x8 x9 x10 x11 x12 x13 x14 x15 0 (j 0) (j 1) (idx_main_v11 j) rfl (by show (j 1).val = 0 * 2048 + (j 1).val; omega)
  have hi := pre_apply x0 x1 x4 x5 x6 x7 x8 x9 x10 x11 x12 x13 x14 x15 1 (j 0) (j 1) (idx_main_v12 j) rfl (by show 2048 + (j 1).val = 1 * 2048 + (j 1).val; omega)
  have hf := pre_apply x0 x1 x4 x5 x6 x7 x8 x9 x10 x11 x12 x13 x14 x15 2 (j 0) (j 1) (idx_main_v13 j) rfl (by show 4096 + (j 1).val = 2 * 2048 + (j 1).val; omega)
  have ho := pre_apply x0 x1 x4 x5 x6 x7 x8 x9 x10 x11 x12 x13 x14 x15 3 (j 0) (j 1) (idx_main_v14 j) rfl (by show 6144 + (j 1).val = 3 * 2048 + (j 1).val; omega)
  rw [val_main_v30_apply, val_main_v23_apply, val_main_v29_apply, val_main_v22_apply, val_main_cst_0_apply, val_main_v21_apply,
    val_main_v20_apply, val_main_cst_apply, val_main_v19_apply, val_main_v18_apply, val_main_v14_apply, val_main_v26_apply,
    val_main_v28_apply, val_main_v24_apply, val_main_v25_apply, val_main_v27_apply, val_main_v17_apply, val_main_v16_apply,
    val_main_v15_apply, val_main_v13_apply, val_main_v12_apply, val_main_v11_apply, hz, hi, hf, ho]
  simp only [Ideal.mulf_def, Ideal.addf_def, Ideal.hostDivf_def, Ideal.hostUnary_exp_def, Ideal.hostUnary_tanh_def,
    Ideal.hostNegf_def, Ideal.negf_def, Ideal.ofBits_def, one_f32, logistic_expanded]
  rfl

end Cert.ReferenceIdeal.CellStep

end
-- ==== Proof.lean ====
/-
  An sLSTM cell step — eight matrix products (four gates, each an input product and a recurrent product), the biases, and
  the tanh / exponential / logistic state update `σ(a_o) · ((e^{a_f} · c + e^{a_i} · tanh a_z) / (e^{a_f} · n + e^{a_i}))` —
  as a Pallas kernel over an 8 × 8 grid of 512 × 256 output blocks, against the jnp reference that stacks the four gates'
  weights, forms one 8192-column pre-activation array and splits it.

  Over the extended reals both programs compute the same expression at every output position: the kernel's matrix
  products into zero accumulators and the reference's `dot_general`s are the same sums over the contracted axis (the
  change of float format in front of the kernel's products is the identity); column `2048·g + q` of the reference's
  stacked array is gate g's pre-activation at hidden unit `q`; the kernel's logistic operation and the reference's
  `1 / (1 + e^{-a})` are one function; and the sums, products and quotient are grouped alike. No law of arithmetic is
  needed, so the precondition (finite inputs) is never opened.

  The pieces: `Spec` states the cell step as one function of the sixteen arguments; `RefSide` reads the reference's run
  as that function; `KernelBody` reads the kernel body at one entry of a block; `KernelBlocks` carries that from blocks
  to the whole array and restates the kernel's run; here the five claims are assembled. No operation of the kernel was rewritten when it
  was idealized, so `preserves` has no conjunct.
-/
import proofs.«143511_j54047868453103_1_alg».proof.Defs
import proofs.«143511_j54047868453103_1_alg».proof.Proof.Gen.Kernel
import proofs.«143511_j54047868453103_1_alg».proof.Proof.Gen.Kernel.Skeleton
import proofs.«143511_j54047868453103_1_alg».proof.Proof.Gen.Kernel.Launch
import proofs.«143511_j54047868453103_1_alg».proof.Proof.Gen.Kernel.Points
import proofs.«143511_j54047868453103_1_alg».proof.Proof.Gen.Kernel.Frame
import proofs.«143511_j54047868453103_1_alg».proof.Proof.Gen.KernelIdeal
import proofs.«143511_j54047868453103_1_alg».proof.Proof.Gen.KernelIdeal.Skeleton
import proofs.«143511_j54047868453103_1_alg».proof.Proof.Gen.KernelIdeal.Launch
import proofs.«143511_j54047868453103_1_alg».proof.Proof.Gen.KernelIdeal.Points
import proofs.«143511_j54047868453103_1_alg».proof.Proof.Gen.KernelIdeal.Frame
import proofs.«143511_j54047868453103_1_alg».proof.Proof.Gen.ReferenceIdeal
import proofs.«143511_j54047868453103_1_alg».proof.Proof.Gen.Pre_finite_inputs
import proofs.«143511_j54047868453103_1_alg».proof.Proof.Gen.KernelIdeal.Value
import proofs.«143511_j54047868453103_1_alg».proof.Proof.Gen.ReferenceIdeal.Run
import proofs.«143511_j54047868453103_1_alg».proof.Proof.Gen.ReferenceIdeal.Read
import proofs.«143511_j54047868453103_1_alg».proof.Proof.KernelBlocks
import proofs.«143511_j54047868453103_1_alg».proof.Proof.RefSide
import Idealize.ShloMosaic.Adequacy
import Idealize.ShloMosaic.Init

noncomputable section

namespace Cert.Proof

open Idealize.ShloMosaic Idealize.SL.Sem

/-- The word-level kernel terminates, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the sixteen arguments both programs end with the cell step of those arguments. -/
theorem algebraic : Cert.algebraic_KernelIdeal_ReferenceIdeal := by
  intro m ρ m' ρ' _ hagree
  refine ⟨fun c => Cert.KernelIdeal.CellStep.result m c, Cert.KernelIdeal.CellStep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.CellStep.result_eq]
  obtain ⟨h0, h1, h2, h3, h4, h5, h6, h7, h8, h9, h10, h11, h12, h13, h14, h15⟩ := hagree c
  rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
